-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8x1024x1024 : Shape := ⟨3, ![8, 1024, 1024]⟩
abbrev S8x1024 : Shape := ⟨2, ![8, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4096x1024 .f32) (main_arg1 : FVec F S8x1024x1024 .f32) (main_arg2 : FVec F S8x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  main_v13
-- ==== Kernel.lean ====
abbrev S4096x1024 : Shape := ⟨2, ![4096, 1024]⟩
abbrev S8x1024x1024 : Shape := ⟨3, ![8, 1024, 1024]⟩
abbrev S8x1024 : Shape := ⟨2, ![8, 1024]⟩
abbrev S4096x8x1024 : Shape := ⟨3, ![4096, 8, 1024]⟩
abbrev S128x1024 : Shape := ⟨2, ![128, 1024]⟩
abbrev S128x8x1024 : Shape := ⟨3, ![128, 8, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S128x1x1024 : Shape := ⟨3, ![128, 1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S4096x1024, .bf16⟩
  | .hbm, ⟨4, _⟩ => ⟨S8x1024x1024, .bf16⟩
  | .hbm, ⟨5, _⟩ => ⟨S4096x8x1024, .f32⟩
  | .local _ .vmem, ⟨0, _⟩ => ⟨S128x1024, .bf16⟩
  | .local _ .vmem, ⟨1, _⟩ => ⟨S128x1024, .bf16⟩
  | .local _ .vmem, ⟨2, _⟩ => ⟨S8x1024x1024, .bf16⟩
  | .local _ .vmem, ⟨3, _⟩ => ⟨S8x1024, .f32⟩
  | .local _ .vmem, ⟨4, _⟩ => ⟨S128x8x1024, .f32⟩
  | .local _ .vmem, ⟨5, _⟩ => ⟨S128x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S8x1024x1024_S1x1024x1024_0_0_0 : ∀ a, (![0, 0, 0] : Fin 3 → Nat) a + S1x1024x1024.size a ≤ S8x1024x1024.size a
  h_S1x1024x1024 : 0 < S1x1024x1024.numel
  shapeCasts_S1x1024x1024_S1024x1024 : S1x1024x1024.ShapeCasts S1024x1024
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  shapeCasts_S1024_S1x1024 : S1024.ShapeCasts S1x1024
  broadcasts_S1x1024_S128x1024 : S1x1024.Broadcasts S128x1024
  inb_S128x8x1024_S128x1x1024_0_0_0 : ∀ a, (![0, 0, 0] : Fin 3 → Nat) a + S128x1x1024.size a ≤ S128x8x1024.size a
  h_S128x1x1024 : 0 < S128x1x1024.numel
  shapeCasts_S128x1x1024_S128x1024 : S128x1x1024.ShapeCasts S128x1024
  shapeCasts_S128x1024_S128x1x1024 : S128x1024.ShapeCasts S128x1x1024
  inb_S8x1024x1024_S1x1024x1024_1_0_0 : ∀ a, (![1, 0, 0] : Fin 3 → Nat) a + S1x1024x1024.size a ≤ S8x1024x1024.size a
  inb_S8x1024_S1x1024_1_0 : ∀ a, (![1, 0] : Fin 2 → Nat) a + S1x1024.size a ≤ S8x1024.size a
  inb_S128x8x1024_S128x1x1024_0_1_0 : ∀ a, (![0, 1, 0] : Fin 3 → Nat) a + S128x1x1024.size a ≤ S128x8x1024.size a
  inb_S8x1024x1024_S1x1024x1024_2_0_0 : ∀ a, (![2, 0, 0] : Fin 3 → Nat) a + S1x1024x1024.size a ≤ S8x1024x1024.size a
  inb_S8x1024_S1x1024_2_0 : ∀ a, (![2, 0] : Fin 2 → Nat) a + S1x1024.size a ≤ S8x1024.size a
  inb_S128x8x1024_S128x1x1024_0_2_0 : ∀ a, (![0, 2, 0] : Fin 3 → Nat) a + S128x1x1024.size a ≤ S128x8x1024.size a
  inb_S8x1024x1024_S1x1024x1024_3_0_0 : ∀ a, (![3, 0, 0] : Fin 3 → Nat) a + S1x1024x1024.size a ≤ S8x1024x1024.size a
  inb_S8x1024_S1x1024_3_0 : ∀ a, (![3, 0] : Fin 2 → Nat) a + S1x1024.size a ≤ S8x1024.size a
  inb_S128x8x1024_S128x1x1024_0_3_0 : ∀ a, (![0, 3, 0] : Fin 3 → Nat) a + S128x1x1024.size a ≤ S128x8x1024.size a
  inb_S8x1024x1024_S1x1024x1024_4_0_0 : ∀ a, (![4, 0, 0] : Fin 3 → Nat) a + S1x1024x1024.size a ≤ S8x1024x1024.size a
  inb_S8x1024_S1x1024_4_0 : ∀ a, (![4, 0] : Fin 2 → Nat) a + S1x1024.size a ≤ S8x1024.size a
  inb_S128x8x1024_S128x1x1024_0_4_0 : ∀ a, (![0, 4, 0] : Fin 3 → Nat) a + S128x1x1024.size a ≤ S128x8x1024.size a
  inb_S8x1024x1024_S1x1024x1024_5_0_0 : ∀ a, (![5, 0, 0] : Fin 3 → Nat) a + S1x1024x1024.size a ≤ S8x1024x1024.size a
  inb_S8x1024_S1x1024_5_0 : ∀ a, (![5, 0] : Fin 2 → Nat) a + S1x1024.size a ≤ S8x1024.size a
  inb_S128x8x1024_S128x1x1024_0_5_0 : ∀ a, (![0, 5, 0] : Fin 3 → Nat) a + S128x1x1024.size a ≤ S128x8x1024.size a
  inb_S8x1024x1024_S1x1024x1024_6_0_0 : ∀ a, (![6, 0, 0] : Fin 3 → Nat) a + S1x1024x1024.size a ≤ S8x1024x1024.size a
  inb_S8x1024_S1x1024_6_0 : ∀ a, (![6, 0] : Fin 2 → Nat) a + S1x1024.size a ≤ S8x1024.size a
  inb_S128x8x1024_S128x1x1024_0_6_0 : ∀ a, (![0, 6, 0] : Fin 3 → Nat) a + S128x1x1024.size a ≤ S128x8x1024.size a
  inb_S8x1024x1024_S1x1024x1024_7_0_0 : ∀ a, (![7, 0, 0] : Fin 3 → Nat) a + S1x1024x1024.size a ≤ S8x1024x1024.size a
  inb_S8x1024_S1x1024_7_0 : ∀ a, (![7, 0] : Fin 2 → Nat) a + S1x1024.size a ≤ S8x1024.size a
  inb_S128x8x1024_S128x1x1024_0_7_0 : ∀ a, (![0, 7, 0] : Fin 3 → Nat) a + S128x1x1024.size a ≤ S128x8x1024.size a
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x1024.size a ≤ S8x1024x1024.size a
  hwx0_1 : ∀ i : grid0.Coords, EltTy.bits .bf16 = 32 ∨ (Rect.block (s := S8x1024x1024) S8x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8x1024.size a ≤ S4096x8x1024.size a
  hwx0_3 : ∀ i : grid0.Coords, EltTy.bits .f32 = 32 ∨ (Rect.block (s := S4096x8x1024) S128x8x1024.size (cc0_transform_3 i) (hinb0_3 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S8x1024x1024 : Shape := ⟨3, ![8, 1024, 1024]⟩
abbrev S8x1024 : Shape := ⟨2, ![8, 1024]⟩
abbrev S4096x8x1024 : Shape := ⟨3, ![4096, 8, 1024]⟩
abbrev S1x8x1024 : Shape := ⟨3, ![1, 8, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S4096x8x1024, .f32⟩
  | .hbm, ⟨4, _⟩ => ⟨S1x8x1024, .f32⟩
  | .hbm, ⟨5, _⟩ => ⟨S4096x8x1024, .f32⟩
  | .hbm, ⟨6, _⟩ => ⟨S4096x8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x1024_S1x8x1024_1_2 : S8x1024.BroadcastsInDim S1x8x1024 (![1, 2] : Fin 2 → Fin S1x8x1024.rank)
  bcast_S1x8x1024_S4096x8x1024_0_1_2 : S1x8x1024.BroadcastsInDim S4096x8x1024 (![0, 1, 2] : Fin 3 → Fin S4096x8x1024.rank)
  dot_S4096x1024_S8x1024x1024_S4096x8x1024_1_2_0_01_n_n_wf : DotDims.WF S4096x1024 S8x1024x1024 S4096x8x1024 [1] [2] [0] [0, 1] [] []

variable [Facts₀]

def dot_S4096x1024_S8x1024x1024_S4096x8x1024_1_2_0_01_n_n : DotDims S4096x1024 S8x1024x1024 S4096x8x1024 where
  lhsContracting := [1]
  rhsContracting := [2]
  lhsNonContracting := [0]
  rhsNonContracting := [0, 1]
  lhsBatch := []
  rhsBatch := []
  wf := dot_S4096x1024_S8x1024x1024_S4096x8x1024_1_2_0_01_n_n_wf

class Facts : Prop extends Facts₀ where

variable [Facts]
-- ==== Proof.Slab.lean ====
/-
  One model's slab of an output block.

  The kernel body computes, for each of the eight models `m`, the [128, 1024] product of the block of `x`
  with the model's [1024, 1024] weight matrix, contracting the LAST axis of both (`y[p, q] = Σ_k x[p, k] · W[q, k]`),
  into a zero accumulator, adds the model's bias row to every row, and stores the result as the [128, 1, 1024] slab
  `out[:, m, :]`. All eight payloads are ONE function `slab` of the block of `x`, the model's [1, 1024, 1024] slice of
  the weights and its [1, 1024] slice of the biases; the body's parts only cut it at different places.

  Read at the index (p, u, q) of the slab (u the unit axis), at the ideal values,
      slab xl ws bs (p, u, q) = Σ_k xl (p, k) · ws (0, q, k) + bs (0, q):
  the shape casts only rename indices, the broadcast repeats the bias row, and a matmul into the zero accumulator is
  the plain sum of products over the contracted axis.
-/
import proofs.«165436_j26946624815474_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Slab

open Cert.KernelIdeal Cert.KernelIdeal.Gen Idealize.ShloMosaic Idealize.ShloMosaic.ValueIdx

/-- The slab of one model: the product of the `x` block with the model's weights (last axes contracted) plus the
    model's bias row on every row, laid out as [128, 1, 1024]. -/
def slab (xl : FVec Ideal S128x1024 .bf16) (ws : Vec Ideal S1x1024x1024 .bf16) (bs : Vec Ideal S1x1024 .f32) :
    FVec Ideal S128x1x1024 .f32 :=
  shapeCast S128x1x1024
    (addf
      (matmul dot_S128x1024_S1024x1024_S128x1024_1_1_0_0_n_n none xl
        (shapeCast S1024x1024 ws shapeCasts_S1x1024x1024_S1024x1024 : FVec Ideal S1024x1024 .bf16)
        (constant S128x1024 .f32 0x00000000#32))
      (broadcastTo S128x1024 (shapeCast S1x1024 (shapeCast S1024 bs shapeCasts_S1x1024_S1024) shapeCasts_S1024_S1x1024)
        broadcasts_S1x1024_S128x1024))
    shapeCasts_S128x1024_S128x1x1024

/-! ## The eight payloads are the slab -/

/-- The body's first operation, a shape cast of the loaded block to its own shape, changes nothing. -/
theorem pay4_eq (v0 : Vec Ideal S128x1024 .bf16) : k0_pay4 v0 = v0 :=
  shapeCast_self v0 shapeCasts_S128x1024_S128x1024

theorem pay5_eq (v0 : Vec Ideal S128x1024 .bf16) (w : Vec Ideal S1x1024x1024 .bf16) (b : Vec Ideal S1x1024 .f32) :
    k0_pay5 v0 w b = slab v0 w b :=
  (rfl : k0_pay5 v0 w b = slab (k0_pay4 v0) w b).trans (congrArg (fun z => slab z w b) (pay4_eq v0))
theorem pay6_eq (v0 : Vec Ideal S128x1024 .bf16) (w : Vec Ideal S1x1024x1024 .bf16) (b : Vec Ideal S1x1024 .f32) :
    k0_pay6 v0 w b = slab v0 w b :=
  (rfl : k0_pay6 v0 w b = slab (k0_pay4 v0) w b).trans (congrArg (fun z => slab z w b) (pay4_eq v0))
theorem pay9_eq (v0 : Vec Ideal S128x1024 .bf16) (w : Vec Ideal S1x1024x1024 .bf16) (b : Vec Ideal S1x1024 .f32) :
    k0_pay9 (k0_pay7 v0 w) (k0_pay8 b) = slab v0 w b :=
  (rfl : k0_pay9 (k0_pay7 v0 w) (k0_pay8 b) = slab (k0_pay4 v0) w b).trans (congrArg (fun z => slab z w b) (pay4_eq v0))
theorem pay10_eq (v1 : FVec Ideal S128x1024 .bf16) (w : Vec Ideal S1x1024x1024 .bf16) (b : Vec Ideal S1x1024 .f32) :
    k0_pay10 v1 w b = slab v1 w b := rfl
theorem pay11_eq (v1 : FVec Ideal S128x1024 .bf16) (w : Vec Ideal S1x1024x1024 .bf16) (b : Vec Ideal S1x1024 .f32) :
    k0_pay11 v1 w b = slab v1 w b := rfl
theorem pay1_eq (v1 : FVec Ideal S128x1024 .bf16) (w : Vec Ideal S1x1024x1024 .bf16) (b : Vec Ideal S1x1024 .f32) :
    k0_pay1 (k0_pay12 v1 w) b = slab v1 w b := rfl
theorem pay2_eq (v1 : FVec Ideal S128x1024 .bf16) (w : Vec Ideal S1x1024x1024 .bf16) (b : Vec Ideal S1x1024 .f32) :
    k0_pay2 v1 w b = slab v1 w b := rfl
theorem pay3_eq (v1 : FVec Ideal S128x1024 .bf16) (w : Vec Ideal S1x1024x1024 .bf16) (b : Vec Ideal S1x1024 .f32) :
    k0_pay3 v1 w b = slab v1 w b := rfl

/-! ## The slab at an index -/

/-- A [128, 1024] array cast to [128, 1, 1024] reads, at (p, u, q), the operand at (p, q): the two indices have the
    same row-major position, the unit axis contributing nothing. -/
theorem cast_mid_unit {α : Type} (x : S128x1024.Idx → α) (h : S128x1024.ShapeCasts S128x1x1024)
    (p : Fin 128) (u : Fin 1) (q : Fin 1024) :
    shapeCast S128x1x1024 x h (ix3 p u q) = x (ix2 p q) :=
  shapeCast_apply x h _ _ (by
    have hu : u.val = 0 := by omega
    rw [Shape.rowMajor_val_three, Shape.rowMajor_val_two]
    show p.val * 1024 + q.val = (p.val * 1 + u.val) * 1024 + q.val
    rw [hu, Nat.mul_one, Nat.add_zero])

/-- The left operand's index at output index `i` and contraction index `q`: row `i 0`, -/
theorem lhs_axis0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
/-- column the contraction index; -/
theorem lhs_axis1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
/-- the right operand's: row `i 1` (the output's column), -/
theorem rhs_axis0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
/-- column the contraction index. -/
theorem rhs_axis1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The product into the zero accumulator, at (p, q): the sum over the contracted axis of `xl (p, k) · W (q, k)`. -/
theorem matmul_zero_apply (xl : FVec Ideal S128x1024 .bf16) (W : FVec Ideal S1024x1024 .bf16) (p : Fin 128) (q : Fin 1024) :
    matmul dot_S128x1024_S1024x1024_S128x1024_1_1_0_0_n_n none xl W (constant S128x1024 .f32 0x00000000#32) (ix2 p q)
      = ∑ k : Fin 1024, xl (ix2 p k) * W (ix2 q k) := by
  simp only [matmul]
  rw [Ideal.matmul_constant_zero_apply, ← Equiv.sum_comp (ValueIdx.contrEquiv1 dot_S128x1024_S1024x1024_S128x1024_1_1_0_0_n_n 1024 rfl rfl).symm]
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p q) ((ValueIdx.contrEquiv1 dot_S128x1024_S1024x1024_S128x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S128x1024_S1024x1024_S128x1024_1_1_0_0_n_n.rhsIdx (ix2 p q) ((ValueIdx.contrEquiv1 dot_S128x1024_S1024x1024_S128x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- THE SLAB AT AN INDEX: the sum over the contracted axis of the products, plus the bias. -/
theorem slab_apply (xl : FVec Ideal S128x1024 .bf16) (ws : Vec Ideal S1x1024x1024 .bf16) (bs : Vec Ideal S1x1024 .f32)
    (p : Fin 128) (u : Fin 1) (q : Fin 1024) :
    slab xl ws bs (ix3 p u q) = (∑ k : Fin 1024, xl (ix2 p k) * ws (ix3 (0 : Fin 1) q k)) + bs (ix2 (0 : Fin 1) q) := by
  unfold slab
  refine (cast_mid_unit _ shapeCasts_S128x1024_S128x1x1024 p u q).trans ?_
  refine (addf_apply _ _ _).trans ?_
  refine congrArg₂ (· + ·) ?_ ?_
  · refine (matmul_zero_apply xl _ p q).trans ?_
    refine Finset.sum_congr rfl fun k _ => ?_
    exact congrArg (xl (ix2 p k) * ·) (shapeCast_1ab_ab_apply ws shapeCasts_S1x1024x1024_S1024x1024 q k)
  · refine (broadcastTo_1b_ab_apply _ broadcasts_S1x1024_S128x1024 p q).trans ?_
    exact congrFun (shapeCast_shapeCast bs shapeCasts_S1x1024_S1024 shapeCasts_S1024_S1x1024) _

end Cert.KernelIdeal.Slab

end
-- ==== Proof.Spec.lean ====
/-
  The function both programs compute: an ensemble of eight affine maps applied to every row of `x`,

      out[p, m, q] = Σ_k x[p, k] · w[m, q, k] + b[m, q]        (k over the 1024 input features),

  on the extended reals. It is stated for an array of `B` rows, so that the same definition reads a 128-row block
  and the whole 4096-row array; `ensemble_congr` is the one fact the block-by-block argument needs: entry `y` of the
  map over some arrays is entry `i` of the map over others as soon as the row of `x`, the row of `w` and the entry
  of `b` that the two entries read are the same. No algebra is used beyond reading the definition: both programs sum
  the same products over the same index set and add the same bias.
-/
import Idealize.ShloMosaic.PureOps.Ideal
import Idealize.ShloMosaic.Lib.ValueIdx

noncomputable section

namespace Cert.Spec

open Idealize.ShloMosaic Idealize.ShloMosaic.ValueIdx
open scoped BigOperators

/-- Entry (p, mm, q) of the ensemble: the `mm`-th map's output feature `q` on row `p`. -/
def cell {B : Nat} (x : (⟨2, ![B, 1024]⟩ : Shape).Idx → EReal) (w : (⟨3, ![8, 1024, 1024]⟩ : Shape).Idx → EReal)
    (b : (⟨2, ![8, 1024]⟩ : Shape).Idx → EReal) (p : Fin B) (mm : Fin 8) (q : Fin 1024) : EReal :=
  (∑ k : Fin 1024, x (ix2 p k) * w (ix3 mm q k)) + b (ix2 mm q)

/-- The ensemble over `B` rows as an array [B, 8, 1024]. -/
def ensemble {B : Nat} (x : (⟨2, ![B, 1024]⟩ : Shape).Idx → EReal) (w : (⟨3, ![8, 1024, 1024]⟩ : Shape).Idx → EReal)
    (b : (⟨2, ![8, 1024]⟩ : Shape).Idx → EReal) : (⟨3, ![B, 8, 1024]⟩ : Shape).Idx → EReal :=
  fun i => cell x w b ⟨(i 0).val, (i 0).isLt⟩ ⟨(i 1).val, (i 1).isLt⟩ ⟨(i 2).val, (i 2).isLt⟩

/-- Two entries of two ensembles are equal when they read the same row of `x`, the same row of `w` and the same bias. -/
theorem ensemble_congr {B B' : Nat}
    (x : (⟨2, ![B, 1024]⟩ : Shape).Idx → EReal) (x' : (⟨2, ![B', 1024]⟩ : Shape).Idx → EReal)
    (w w' : (⟨3, ![8, 1024, 1024]⟩ : Shape).Idx → EReal) (b b' : (⟨2, ![8, 1024]⟩ : Shape).Idx → EReal)
    (y : (⟨3, ![B', 8, 1024]⟩ : Shape).Idx) (i : (⟨3, ![B, 8, 1024]⟩ : Shape).Idx)
    (hx : ∀ k : Fin 1024, x' (ix2 (⟨(y 0).val, (y 0).isLt⟩ : Fin B') k) = x (ix2 (⟨(i 0).val, (i 0).isLt⟩ : Fin B) k))
    (hw : ∀ k : Fin 1024, w' (ix3 (⟨(y 1).val, (y 1).isLt⟩ : Fin 8) (⟨(y 2).val, (y 2).isLt⟩ : Fin 1024) k)
        = w (ix3 (⟨(i 1).val, (i 1).isLt⟩ : Fin 8) (⟨(i 2).val, (i 2).isLt⟩ : Fin 1024) k))
    (hb : b' (ix2 (⟨(y 1).val, (y 1).isLt⟩ : Fin 8) (⟨(y 2).val, (y 2).isLt⟩ : Fin 1024))
        = b (ix2 (⟨(i 1).val, (i 1).isLt⟩ : Fin 8) (⟨(i 2).val, (i 2).isLt⟩ : Fin 1024))) :
    ensemble x' w' b' y = ensemble x w b i := by
  unfold ensemble cell
  rw [hb]
  exact congrArg (· + _) (Finset.sum_congr rfl fun k _ => by rw [hx k, hw k])

end Cert.Spec

end
-- ==== Proof.Block.lean ====
/-
  What the body leaves in the output block, as one function of the three input blocks.

  The body's eight stores tile the [128, 8, 1024] output block: store `mm` writes the slab `out[:, mm, :]`, computed
  from the whole block of `x`, the `mm`-th [1, 1024, 1024] slice of the weights and the `mm`-th [1, 1024] slice of the
  biases. Entry (p, u, q) of that slab sits at (p, mm, q) of the block, the weights' slice reads (mm, q, k) at its
  local (0, q, k) and the biases' slice (mm, q) at its local (0, q); so the slab is the `mm`-th map of the ensemble on
  the block's rows (`piece`), and the block, being covered by the eight slabs, is the ensemble over its 128 rows
  (`out_eq`).
-/
import proofs.«165436_j26946624815474_1_alg».proof.Proof.Gen.KernelIdeal.Frame
import proofs.«165436_j26946624815474_1_alg».proof.Proof.Slab
import proofs.«165436_j26946624815474_1_alg».proof.Proof.Spec

noncomputable section

namespace Cert.KernelIdeal.Block

open Cert.KernelIdeal Cert.KernelIdeal.Gen Idealize.ShloMosaic Idealize.ShloMosaic.ValueIdx

/-- Slab `mm`, computed from the slices at offset `mm`, is the ensemble's `mm`-th map at the place its store writes. -/
theorem piece (x0 : Vec Ideal S128x1024 .bf16) (x1 : Vec Ideal S8x1024x1024 .bf16) (x2 : Vec Ideal S8x1024 .f32)
    (mm : Fin 8)
    (inbO : ∀ a, (![0, mm.val, 0] : Fin 3 → Nat) a + S128x1x1024.size a ≤ S128x8x1024.size a)
    (inbW : ∀ a, (![mm.val, 0, 0] : Fin 3 → Nat) a + S1x1024x1024.size a ≤ S8x1024x1024.size a)
    (inbB : ∀ a, (![mm.val, 0] : Fin 2 → Nat) a + S1x1024.size a ≤ S8x1024.size a)
    (x : S128x1x1024.Idx) :
    Slab.slab x0 (View.ld x1 (Rect.unit (s := S8x1024x1024) ![mm.val, 0, 0] S1x1024x1024.size inbW))
        (View.ld x2 (Rect.unit (s := S8x1024) ![mm.val, 0] S1x1024.size inbB)) x
      = Cert.Spec.ensemble (B := 128) x0 x1 x2
          ((Rect.unit (s := S128x8x1024) ![0, mm.val, 0] S128x1x1024.size inbO).emb x) := by
  obtain ⟨p, u, q, rfl⟩ : ∃ (p : Fin 128) (u : Fin 1) (q : Fin 1024), x = ix3 p u q := ⟨x 0, x 1, x 2, eq_ix3 x⟩
  have hu : u.val = 0 := by omega
  rw [Slab.slab_apply]
  unfold Cert.Spec.ensemble Cert.Spec.cell
  refine congrArg₂ (· + ·) (Finset.sum_congr rfl fun k _ => congrArg₂ (· * ·) (congrArg x0 ?_) (congrArg x1 ?_)) (congrArg x2 ?_)
  · funext a; apply Fin.ext
    match a with
    | ⟨0, _⟩ => show p.val = 0 + 1 * p.val; omega
    | ⟨1, _⟩ => rfl
  · funext a; apply Fin.ext
    match a with
    | ⟨0, _⟩ => show mm.val + 1 * 0 = mm.val + 1 * u.val; omega
    | ⟨1, _⟩ => show 0 + 1 * q.val = 0 + 1 * q.val; rfl
    | ⟨2, _⟩ => show 0 + 1 * k.val = k.val; omega
  · funext a; apply Fin.ext
    match a with
    | ⟨0, _⟩ => show mm.val + 1 * 0 = mm.val + 1 * u.val; omega
    | ⟨1, _⟩ => show 0 + 1 * q.val = 0 + 1 * q.val; rfl

theorem hz2 : (![0, 0] : Fin 2 → Nat) = fun _ => 0 := funext fun a => by fin_cases a <;> rfl

/-- The body loads the block of `x` whole. -/
theorem ld_x (x0 : Vec Ideal S128x1024 .bf16) : View.ld x0 r0_0 = x0 :=
  View.ld_unit_zero (S := S128x1024) hz2 _ x0

/-- THE OUTPUT BLOCK after the body is the ensemble over the block's 128 rows. -/
theorem out_eq (x0 : Vec Ideal S128x1024 .bf16) (x1 : Vec Ideal S8x1024x1024 .bf16) (x2 : Vec Ideal S8x1024 .f32) :
    out0_3 x0 x1 x2 = Cert.Spec.ensemble (B := 128) x0 x1 x2 := by
  funext y
  unfold out0_3
  rw [ld_x, Slab.pay4_eq]
  refine View.canon_apply_of_pieces (Val := Elt Ideal) (S := S128x8x1024) (e := .f32)
    (Cert.Spec.ensemble (B := 128) x0 x1 x2) _ ?_ y (cover0_3 _ _ _ _ _ _ _ _ y)
  intro pc hpc x
  simp only [List.mem_cons, List.not_mem_nil, or_false] at hpc
  rcases hpc with rfl | rfl | rfl | rfl | rfl | rfl | rfl | rfl
  · exact (congrFun (Slab.pay3_eq x0 _ _) x).trans
      (piece x0 x1 x2 7 inb_S128x8x1024_S128x1x1024_0_7_0 inb_S8x1024x1024_S1x1024x1024_7_0_0 inb_S8x1024_S1x1024_7_0 x)
  · exact (congrFun (Slab.pay2_eq x0 _ _) x).trans
      (piece x0 x1 x2 6 inb_S128x8x1024_S128x1x1024_0_6_0 inb_S8x1024x1024_S1x1024x1024_6_0_0 inb_S8x1024_S1x1024_6_0 x)
  · exact (congrFun (Slab.pay1_eq x0 _ _) x).trans
      (piece x0 x1 x2 5 inb_S128x8x1024_S128x1x1024_0_5_0 inb_S8x1024x1024_S1x1024x1024_5_0_0 inb_S8x1024_S1x1024_5_0 x)
  · exact (congrFun (Slab.pay11_eq x0 _ _) x).trans
      (piece x0 x1 x2 4 inb_S128x8x1024_S128x1x1024_0_4_0 inb_S8x1024x1024_S1x1024x1024_4_0_0 inb_S8x1024_S1x1024_4_0 x)
  · exact (congrFun (Slab.pay10_eq x0 _ _) x).trans
      (piece x0 x1 x2 3 inb_S128x8x1024_S128x1x1024_0_3_0 inb_S8x1024x1024_S1x1024x1024_3_0_0 inb_S8x1024_S1x1024_3_0 x)
  · exact (congrFun (Slab.pay9_eq x0 _ _) x).trans
      (piece x0 x1 x2 2 inb_S128x8x1024_S128x1x1024_0_2_0 inb_S8x1024x1024_S1x1024x1024_2_0_0 inb_S8x1024_S1x1024_2_0 x)
  · exact (congrFun (Slab.pay6_eq x0 _ _) x).trans
      (piece x0 x1 x2 1 inb_S128x8x1024_S128x1x1024_0_1_0 inb_S8x1024x1024_S1x1024x1024_1_0_0 inb_S8x1024_S1x1024_1_0 x)
  · exact (congrFun (Slab.pay5_eq x0 _ _) x).trans
      (piece x0 x1 x2 0 inb_S128x8x1024_S128x1x1024_0_0_0 inb_S8x1024x1024_S1x1024x1024_0_0_0 inb_S8x1024_S1x1024_0_0 x)

end Cert.KernelIdeal.Block

end
-- ==== Proof.Whole.lean ====
/-
  The kernel's output array after the run, as one function of its arguments.

  The pipeline walks the 32 blocks of 128 rows. At point `t` the window of `x` holds rows 128·t … 128·t + 127 of the
  array the region finds (the same block index as the output's, offset 0 along the features), the windows of the
  weights and of the biases hold their whole arrays (block index 0 on every axis), and the output window is written
  back to rows 128·t … of the result. So what point `t` writes back — the ensemble over the block's rows, by the
  block's value — is block `t` of the ensemble over the whole arrays: entry (p, mm, q) of the block and entry
  (128·t + p, mm, q) of the array read the same row of `x`, the same row of the weights and the same bias
  (`flushed_eq`). Every row `r` lies in the block of point `r / 128`, so the blocks cover the result (`cover`) and the
  result IS the ensemble of the region-entry arrays (`final`). Those are the arguments themselves: the two
  conversions to a narrower float format that the program applies to `x` and to the weights before the region are
  the identity on the ideal values, and the biases are passed as they are.
-/
import proofs.«165436_j26946624815474_1_alg».proof.Proof.Gen.KernelIdeal.Value
import proofs.«165436_j26946624815474_1_alg».proof.Proof.Block
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block indices of the four windows over the grid, decided over the 32 points: the window of `x` moves with the
    output's along the rows, everything else stays at block 0, and point `t` is at block row `t`. -/
theorem idx_facts : ∀ t : Fin cfg0.N,
    win0_0.index t (0 : Fin 2) = win0_3.index t (0 : Fin 3) ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) = t.val :=
  (by decide +kernel : ∀ t : Fin grid0.N, _)

/-- A window's block at a point reads the region-entry array through the block's placement. -/
theorem xblk_apply (c : Dev nD) (t : Fin cfg0.N) (j : S128x1024.Idx) :
    iblk m c 0 t j = V m c main_v0 (((cfg0.win 0).blk t).view.emb j) := rfl
theorem wblk_apply (c : Dev nD) (t : Fin cfg0.N) (j : S8x1024x1024.Idx) :
    iblk m c 1 t j = V m c main_v1 (((cfg0.win 1).blk t).view.emb j) := rfl
theorem bblk_apply (c : Dev nD) (t : Fin cfg0.N) (j : S8x1024.Idx) :
    iblk m c 2 t j = V m c main_arg2 (((cfg0.win 2).blk t).view.emb j) := rfl

/-- WHAT POINT `t` WRITES BACK is block `t` of the ensemble over the arrays the region finds. -/
theorem flushed_eq (c : Dev nD) (t : Fin cfg0.N) :
    (dats m 0 c).flushed 3 t = ((cfg0.win 3).blk t).view.read (Elt Ideal)
      (Cert.Spec.ensemble (B := 4096) (V m c main_v0) (V m c main_v1) (V m c main_arg2)) := by
  rw [Cert.KernelIdeal.Value.flushed3, Block.out_eq]
  obtain ⟨e00, e01, e10, e11, e12, e20, e21, e31, e32, e30⟩ := idx_facts t
  funext y
  show Cert.Spec.ensemble (B := 128) (iblk m c 0 t) (iblk m c 1 t) (iblk m c 2 t) y
    = Cert.Spec.ensemble (B := 4096) (V m c main_v0) (V m c main_v1) (V m c main_arg2) (((cfg0.win 3).blk t).view.emb y)
  refine Cert.Spec.ensemble_congr _ _ _ _ _ _ y _ (fun k => ?_) (fun k => ?_) ?_
  · refine (xblk_apply m c t _).trans (congrArg (V m c main_v0) (funext fun a => Fin.ext ?_))
    match a with
    | ⟨0, _⟩ => show win0_0.index t (0 : Fin 2) * 128 + 1 * (y 0).val = win0_3.index t (0 : Fin 3) * 128 + 1 * (y 0).val; omega
    | ⟨1, _⟩ => show win0_0.index t (1 : Fin 2) * 1024 + 1 * k.val = k.val; omega
  · refine (wblk_apply m c t _).trans (congrArg (V m c main_v1) (funext fun a => Fin.ext ?_))
    match a with
    | ⟨0, _⟩ => show win0_1.index t (0 : Fin 3) * 8 + 1 * (y 1).val = win0_3.index t (1 : Fin 3) * 8 + 1 * (y 1).val; omega
    | ⟨1, _⟩ => show win0_1.index t (1 : Fin 3) * 1024 + 1 * (y 2).val = win0_3.index t (2 : Fin 3) * 1024 + 1 * (y 2).val; omega
    | ⟨2, _⟩ => show win0_1.index t (2 : Fin 3) * 1024 + 1 * k.val = k.val; omega
  · refine (bblk_apply m c t _).trans (congrArg (V m c main_arg2) (funext fun a => Fin.ext ?_))
    match a with
    | ⟨0, _⟩ => show win0_2.index t (0 : Fin 2) * 8 + 1 * (y 1).val = win0_3.index t (1 : Fin 3) * 8 + 1 * (y 1).val; omega
    | ⟨1, _⟩ => show win0_2.index t (1 : Fin 2) * 1024 + 1 * (y 2).val = win0_3.index t (2 : Fin 3) * 1024 + 1 * (y 2).val; omega

/-- An index of the result is in point `t`'s block iff each coordinate is in the block's range on its axis. -/
theorem mem_blk (t : Fin cfg0.N) (i : S4096x8x1024.Idx) :
    i ∈ ((cfg0.win 3).blk t).view.set ↔ ∀ a : Fin 3, win0_3.index t a * S128x8x1024.size a ≤ (i a).val
      ∧ (i a).val < win0_3.index t a * S128x8x1024.size a + S128x8x1024.size a := by
  show i ∈ ((View.whole main_v2).slice (win0_3.rect t)).set ↔ _
  rw [View.set_slice_whole, Rect.mem_set_unit]
  exact Iff.rfl

/-- Every index of the result is in the block of the point its row falls in. -/
theorem cover (i : S4096x8x1024.Idx) :
    ∃ t : Fin cfg0.N, (cfg0.win 3).flush t = true ∧ i ∈ ((cfg0.win 3).blk t).view.set := by
  have h0 : (i 0).val < 4096 := (i 0).isLt
  have h1 : (i 1).val < 8 := (i 1).isLt
  have h2 : (i 2).val < 1024 := (i 2).isLt
  have hN : (i 0).val / 128 < cfg0.N := by show _ < grid0.N; rw [N_0]; omega
  obtain ⟨-, -, -, -, -, -, -, e31, e32, e30⟩ := idx_facts ⟨(i 0).val / 128, hN⟩
  have e30' : win0_3.index ⟨(i 0).val / 128, hN⟩ (0 : Fin 3) = (i 0).val / 128 := e30
  refine ⟨⟨(i 0).val / 128, hN⟩, flush0_3 _, ?_⟩
  rw [mem_blk]
  intro a
  match a with
  | ⟨0, _⟩ => show win0_3.index ⟨(i 0).val / 128, hN⟩ (0 : Fin 3) * 128 ≤ (i 0).val ∧ (i 0).val < win0_3.index ⟨(i 0).val / 128, hN⟩ (0 : Fin 3) * 128 + 128; omega
  | ⟨1, _⟩ => show win0_3.index ⟨(i 0).val / 128, hN⟩ (1 : Fin 3) * 8 ≤ (i 1).val ∧ (i 1).val < win0_3.index ⟨(i 0).val / 128, hN⟩ (1 : Fin 3) * 8 + 8; omega
  | ⟨2, _⟩ => show win0_3.index ⟨(i 0).val / 128, hN⟩ (2 : Fin 3) * 1024 ≤ (i 2).val ∧ (i 2).val < win0_3.index ⟨(i 0).val / 128, hN⟩ (2 : Fin 3) * 1024 + 1024; omega

/-- THE RESULT after the run is the ensemble over the arrays the region finds. -/
theorem final (c : Dev nD) : (dats m 0 c).arrAt 3 cfg0.N
    = Cert.Spec.ensemble (B := 4096) (V m c main_v0) (V m c main_v1) (V m c main_arg2) :=
  (dats m 0 c).arrAt_eq_of_cover 3 _ (fun t _ => flushed_eq m c t) cover

/-- The region finds `x` as launched: the conversion to the narrower format is the identity on the ideal values. -/
theorem x_entry (c : Dev nD) : (V m c main_v0 : S4096x1024.Idx → EReal) = m ((c : Thread nD τ).loc main_arg0) := by
  dsimp only [Gen.V, Gen.hostOps0]; after_results; rfl
/-- The same for the weights. -/
theorem w_entry (c : Dev nD) : (V m c main_v1 : S8x1024x1024.Idx → EReal) = m ((c : Thread nD τ).loc main_arg1) := by
  dsimp only [Gen.V, Gen.hostOps0]; after_results; rfl

/-- THE RUN: every weakly fair execution terminates with the result at the ensemble of the arguments, the arguments
    unchanged. -/
theorem run : θ_run defs (onTc (τ := τ) (main (F := Ideal))) ⟨m, fun _ => 0, ρ⟩ fun r => ∀ c : Dev nD,
      r.2.mem ((c : Thread nD τ).loc main_v2) = Cert.Spec.ensemble (B := 4096) (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [x_entry m c, w_entry m c, V_main_arg2 m c])), (h c).2⟩)
    (Cert.KernelIdeal.Value.run_blocks m ρ)

end Cert.KernelIdeal.Whole

end
-- ==== Proof.RefValue.lean ====
/-
  The reference computes the ensemble.

  The reference is one contraction of `x` [4096, 1024] with the weights [8, 1024, 1024] over the feature axis (axis 1
  of `x`, axis 2 of the weights) into [4096, 8, 1024], plus the biases broadcast over the rows. Read at an index
  (p, mm, q) on the ideal values the contraction is Σ_k x (p, k) · w (mm, q, k) and the broadcast is b (mm, q): entry
  (p, mm, q) of the ensemble.
-/
import proofs.«165436_j26946624815474_1_alg».proof.Proof.Gen.ReferenceIdeal.Read
import proofs.«165436_j26946624815474_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result, as the generated reading states it, is the ensemble of its three arguments. -/
theorem result_eq (x0 : (⟨S4096x1024, .f32⟩ : BufTy).Contents (Elt Ideal)) (x1 : (⟨S8x1024x1024, .f32⟩ : BufTy).Contents (Elt Ideal))
    (x2 : (⟨S8x1024, .f32⟩ : BufTy).Contents (Elt Ideal)) :
    val_main_v3 (F := Ideal) x0 x1 x2 = Cert.Spec.ensemble (B := 4096) x0 x1 x2 := by
  funext i
  rw [val_main_v3_apply, val_main_v0_apply, val_main_v2_apply, val_main_v1_apply]
  unfold Cert.Spec.ensemble Cert.Spec.cell
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
    | ⟨2, _⟩ => rfl
  · funext a
    match a with
    | ⟨0, _⟩ => rfl
    | ⟨1, _⟩ => rfl

end Cert.ReferenceIdeal.RefValue

end
-- ==== Proof.lean ====
/-
  An ensemble of eight affine maps on the rows of `x`:

      out[p, m, q] = Σ_k x[p, k] · w[m, q, k] + b[m, q]      (x : [4096, 1024], w : [8, 1024, 1024], b : [8, 1024]).

  The kernel walks the rows in 32 blocks of 128; on each block it forms, for every map `m`, the product of the block
  with the map's weight matrix (both contracted along their last axis) into a zero accumulator, adds the bias row, and
  stores the [128, 1, 1024] slab `out[:, m, :]` of the output block. The reference is one contraction of `x` with the
  weights along the same axes plus the biases broadcast over the rows.

  On the ideal values both are the function above, entry by entry (Proof/Spec.lean, `Cert.Spec.ensemble`):
    * a slab at an index is the sum of products plus the bias (Proof/Slab.lean), the eight slabs tile the block, so the
      block is the ensemble over its 128 rows (Proof/Block.lean);
    * block `t` of the ensemble over the whole arrays reads exactly the rows the pipeline stages at point `t`, the
      blocks cover the result, and the conversions of `x` and `w` to a narrower float format before the region are the
      identity on the ideal values: the result array is the ensemble of the arguments (Proof/Whole.lean);
    * the reference's contraction read at an index is the same sum, its broadcast the same bias (Proof/RefValue.lean).
  The two sides are the same sum over the same index set of the same products: no law of arithmetic is needed, and the
  inputs' finiteness is not used. The idealized kernel is the kernel's own text read at the ideal values, so `preserves` has no conjunct. The frames are the
  generated ones; the reference's is its run with the result dropped.
-/
import proofs.«165436_j26946624815474_1_alg».proof.Defs
import proofs.«165436_j26946624815474_1_alg».proof.Proof.Gen.Kernel
import proofs.«165436_j26946624815474_1_alg».proof.Proof.Gen.Kernel.Skeleton
import proofs.«165436_j26946624815474_1_alg».proof.Proof.Gen.Kernel.Launch
import proofs.«165436_j26946624815474_1_alg».proof.Proof.Gen.Kernel.Points
import proofs.«165436_j26946624815474_1_alg».proof.Proof.Gen.Kernel.Frame
import proofs.«165436_j26946624815474_1_alg».proof.Proof.Gen.KernelIdeal
import proofs.«165436_j26946624815474_1_alg».proof.Proof.Gen.KernelIdeal.Skeleton
import proofs.«165436_j26946624815474_1_alg».proof.Proof.Gen.KernelIdeal.Launch
import proofs.«165436_j26946624815474_1_alg».proof.Proof.Gen.KernelIdeal.Points
import proofs.«165436_j26946624815474_1_alg».proof.Proof.Gen.KernelIdeal.Frame
import proofs.«165436_j26946624815474_1_alg».proof.Proof.Gen.ReferenceIdeal
import proofs.«165436_j26946624815474_1_alg».proof.Proof.Gen.Pre_finite_inputs
import proofs.«165436_j26946624815474_1_alg».proof.Proof.Gen.KernelIdeal.Value
import proofs.«165436_j26946624815474_1_alg».proof.Proof.Gen.ReferenceIdeal.Run
import proofs.«165436_j26946624815474_1_alg».proof.Proof.Gen.ReferenceIdeal.Read
import proofs.«165436_j26946624815474_1_alg».proof.Proof.Whole
import proofs.«165436_j26946624815474_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the ensemble of the arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
